-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S512x4 : S_.BroadcastsInDim S512x4 (![] : Fin 0 → Fin S512x4.rank)
  reducesTo_S512x4_S_d0_1 : S512x4.ReducesTo [0, 1] S_
  bcast_S_S512 : S_.BroadcastsInDim S512 (![] : Fin 0 → Fin S512.rank)
  reducesTo_S512_S_d0 : S512.ReducesTo [0] S_
  bcast_S_S512x48 : S_.BroadcastsInDim S512x48 (![] : Fin 0 → Fin S512x48.rank)
  reducesTo_S512x48_S_d0_1 : S512x48.ReducesTo [0, 1] S_
  bcast_S_S16x512 : S_.BroadcastsInDim S16x512 (![] : Fin 0 → Fin S16x512.rank)
  reducesTo_S16x512_S_d0_1 : S16x512.ReducesTo [0, 1] S_
  bcast_S_S512x16 : S_.BroadcastsInDim S512x16 (![] : Fin 0 → Fin S512x16.rank)
  reducesTo_S512x16_S_d0_1 : S512x16.ReducesTo [0, 1] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S512x16 .f32) (main_arg8 : FVec F S512 .f32) (main_arg9 : FVec F S512x256 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  main_v48

def fn_part1 {F : FTy → Type} [FloatOps F] (main_arg4 : FVec F S512x48 .f32) (main_arg5 : FVec F S16x512 .f32) (main_arg6 : FVec F S512 .f32) (main_arg7 : FVec F S512x16 .f32) (main_arg8 : FVec F S512 .f32) (main_arg9 : FVec F S512x256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x48 .f32 := Host.absf main_arg4
  let main_cst_6 : FVec F S_ .f32 := constant S_ .f32 0x7F800000#32
  let main_v20 : FVec F S512x48 .f32 := broadcastInDim S512x48 ![] bcast_S_S512x48 main_cst_6
  let main_v21 : IVec S512x48 1 := cmpf .olt main_v19 main_v20
  let main_c_7 : IVec S_ 1 := constantI S_ 1 1#1
  let main_v22 : IVec S_ 1 := (fun x v => Host.reduce IntOp.andi x v reducesTo_S512x48_S_d0_1 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S8x256x128x128 .f32) (main_arg1 : FVec F S256x1024 .f32) (main_arg2 : FVec F S512x4 .f32) (main_arg3 : FVec F S512 .f32) (main_arg4 : FVec F S512x48 .f32) (main_arg5 : FVec F S16x512 .f32) (main_arg6 : FVec F S512 .f32) (main_arg7 : FVec F S512x16 .f32) (main_arg8 : FVec F S512 .f32) (main_arg9 : FVec F S512x256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S512x4 .f32 := Host.absf main_arg2
  let main_cst_2 : FVec F S_ .f32 := constant S_ .f32 0x7F800000#32
  let main_v10 : FVec F S512x4 .f32 := broadcastInDim S512x4 ![] bcast_S_S512x4 main_cst_2
  let main_v11 : IVec S512x4 1 := cmpf .olt main_v9 main_v10
  let main_c_3 : IVec S_ 1 := constantI S_ 1 1#1
  let main_v12 : IVec S_ 1 := (fun x v => Host.reduce IntOp.andi x v reducesTo_S512x4_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S8x256x128x128 : Shape := ⟨4, ![8, 256, 128, 128]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S8x128x128x256 : Shape := ⟨4, ![8, 128, 128, 256]⟩
abbrev S131072x256 : Shape := ⟨2, ![131072, 256]⟩
abbrev S512x1 : Shape := ⟨2, ![512, 1]⟩
abbrev S1x512 : Shape := ⟨2, ![1, 512]⟩
abbrev S1024x256 : Shape := ⟨2, ![1024, 256]⟩
abbrev S1024x1024 : Shape := ⟨2, ![1024, 1024]⟩
abbrev S1024x512 : Shape := ⟨2, ![1024, 512]⟩
abbrev S1024x48 : Shape := ⟨2, ![1024, 48]⟩
abbrev S1024x16 : Shape := ⟨2, ![1024, 16]⟩
abbrev S1024 : Shape := ⟨1, ![1024]⟩
abbrev S1024x1 : Shape := ⟨2, ![1024, 1]⟩

abbrev nBuf : Space → Nat
  | .hbm => 21
  | .vmem => 12
  | .smem => 0
  | _ => 0

abbrev bufTy : (tb : Table) → Fin (tcTables nBuf tb) → BufTy
  | .hbm, ⟨0, _⟩ => ⟨S8x256x128x128, .f32⟩
  | .hbm, ⟨1, _⟩ => ⟨S256x1024, .f32⟩
  | .hbm, ⟨2, _⟩ => ⟨S512x4, .f32⟩
  | .hbm, ⟨3, _⟩ => ⟨S512, .f32⟩
  | .hbm, ⟨4, _⟩ => ⟨S512x48, .f32⟩
  | .hbm, ⟨5, _⟩ => ⟨S16x512, .f32⟩
  | .hbm, ⟨6, _⟩ => ⟨S512, .f32⟩
  | .hbm, ⟨7, _⟩ => ⟨S512x16, .f32⟩
  | .hbm, ⟨8, _⟩ => ⟨S512, .f32⟩
  | .hbm, ⟨9, _⟩ => ⟨S512x256, .f32⟩
  | .hbm, ⟨10, _⟩ => ⟨S8x128x128x256, .f32⟩
  | .hbm, ⟨11, _⟩ => ⟨S131072x256, .f32⟩
  | .hbm, ⟨12, _⟩ => ⟨S512x1, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S131072x256, .f32⟩
  | .hbm, ⟨19, _⟩ => ⟨S8x128x128x256, .f32⟩
  | .hbm, ⟨20, _⟩ => ⟨S8x256x128x128, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1x512, .f32⟩
  | .local _ .vmem, ⟨4, _⟩ => ⟨S1x512, .f32⟩
  | .local _ .vmem, ⟨5, _⟩ => ⟨S512x48, .f32⟩
  | .local _ .vmem, ⟨6, _⟩ => ⟨S16x512, .f32⟩
  | .local _ .vmem, ⟨7, _⟩ => ⟨S1x512, .f32⟩
  | .local _ .vmem, ⟨8, _⟩ => ⟨S1x512, .f32⟩
  | .local _ .vmem, ⟨9, _⟩ => ⟨S512x256, .f32⟩
  | .local _ .vmem, ⟨10, _⟩ => ⟨S1024x256, .f32⟩
  | .local _ .vmem, ⟨11, _⟩ => ⟨S1024x256, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S8x256x128x128_S8x128x128x256_0_2_3_1 : S8x256x128x128.Transposes [0, 2, 3, 1] S8x128x128x256
  shapeCasts_S8x128x128x256_S131072x256 : S8x128x128x256.ShapeCasts S131072x256
  slices_S512x4_S512x1_0_3 : S512x4.Slices ![0, 3] S512x1
  shapeCasts_S512x1_S512 : S512x1.ShapeCasts S512
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  slices_S1024x1024_o0_0_S1024x512 : S1024x1024.Slices ![0, 0] S1024x512
  slices_S1024x1024_o0_512_S1024x512 : S1024x1024.Slices ![0, 512] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x48_S512x48_0_0 : ∀ a, (![0, 0] : Fin 2 → Nat) a + S512x48.size a ≤ S512x48.size a
  h_S512x48 : 0 < S512x48.numel
  slices_S1024x48_o0_0_S1024x16 : S1024x48.Slices ![0, 0] S1024x16
  slices_S1024x48_o0_16_S1024x16 : S1024x48.Slices ![0, 16] S1024x16
  slices_S1024x48_o0_32_S1024x16 : S1024x48.Slices ![0, 32] S1024x16
  inb_S16x512_S16x512_0_0 : ∀ a, (![0, 0] : Fin 2 → Nat) a + S16x512.size a ≤ S16x512.size a
  h_S16x512 : 0 < S16x512.numel
  reduces_S1024x16_S1024 : S1024x16.Reduces [1] S1024
  shapeCasts_S1024_S1024x1 : S1024.ShapeCasts S1024x1
  broadcasts_S1024x1_S1024x512 : S1024x1.Broadcasts S1024x512
  inb_S512x256_S512x256_0_0 : ∀ a, (![0, 0] : Fin 2 → Nat) a + S512x256.size a ≤ S512x256.size a
  h_S512x256 : 0 < S512x256.numel
  shapeCasts_S131072x256_S8x128x128x256 : S131072x256.ShapeCasts S8x128x128x256
  transposes_S8x128x128x256_S8x256x128x128_0_3_1_2 : S8x128x128x256.Transposes [0, 3, 1, 2] S8x256x128x128
  dot_S1024x256_S256x1024_S1024x1024_1_0_0_1_n_n_wf : DotDims.WF S1024x256 S256x1024 S1024x1024 [1] [0] [0] [1] [] []
  dot_S1024x512_S512x48_S1024x48_1_0_0_1_n_n_wf : DotDims.WF S1024x512 S512x48 S1024x48 [1] [0] [0] [1] [] []
  dot_S1024x16_S16x512_S1024x512_1_0_0_1_n_n_wf : DotDims.WF S1024x16 S16x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x48.size a ≤ S512x48.size a
  hwx0_4 : ∀ i : grid0.Coords, EltTy.bits .f32 = 32 ∨ (Rect.block (s := S512x48) S512x48.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x512.size a
  hwx0_5 : ∀ i : grid0.Coords, EltTy.bits .f32 = 32 ∨ (Rect.block (s := S16x512) S16x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S131072x256.size a
  hwx0_9 : ∀ i : grid0.Coords, EltTy.bits .f32 = 32 ∨ (Rect.block (s := S131072x256) S1024x256.size (cc0_transform_9 i) (hinb0_9 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x512_S512x48_S1024x48_1_0_0_1_n_n : DotDims S1024x512 S512x48 S1024x48 where
  lhsContracting := [1]
  rhsContracting := [0]
  lhsNonContracting := [0]
  rhsNonContracting := [1]
  lhsBatch := []
  rhsBatch := []
  wf := dot_S1024x512_S512x48_S1024x48_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S8x128x128x256 : Shape := ⟨4, ![8, 128, 128, 256]⟩
abbrev S131072x256 : Shape := ⟨2, ![131072, 256]⟩
abbrev S131072x1024 : Shape := ⟨2, ![131072, 1024]⟩
abbrev S131072x512 : Shape := ⟨2, ![131072, 512]⟩
abbrev S512x1 : Shape := ⟨2, ![512, 1]⟩
abbrev S1x512 : Shape := ⟨2, ![1, 512]⟩
abbrev S_ : Shape := ⟨0, ![]⟩
abbrev S131072x48 : Shape := ⟨2, ![131072, 48]⟩
abbrev S131072x16 : Shape := ⟨2, ![131072, 16]⟩
abbrev S131072 : Shape := ⟨1, ![131072]⟩
abbrev S131072x1 : Shape := ⟨2, ![131072, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S256x1024, .f32⟩
  | .hbm, ⟨2, _⟩ => ⟨S512x4, .f32⟩
  | .hbm, ⟨3, _⟩ => ⟨S512, .f32⟩
  | .hbm, ⟨4, _⟩ => ⟨S512x48, .f32⟩
  | .hbm, ⟨5, _⟩ => ⟨S16x512, .f32⟩
  | .hbm, ⟨6, _⟩ => ⟨S512, .f32⟩
  | .hbm, ⟨7, _⟩ => ⟨S512x16, .f32⟩
  | .hbm, ⟨8, _⟩ => ⟨S512, .f32⟩
  | .hbm, ⟨9, _⟩ => ⟨S512x256, .f32⟩
  | .hbm, ⟨10, _⟩ => ⟨S8x128x128x256, .f32⟩
  | .hbm, ⟨11, _⟩ => ⟨S131072x256, .f32⟩
  | .hbm, ⟨12, _⟩ => ⟨S131072x1024, .f32⟩
  | .hbm, ⟨13, _⟩ => ⟨S131072x512, .f32⟩
  | .hbm, ⟨14, _⟩ => ⟨S131072x512, .f32⟩
  | .hbm, ⟨15, _⟩ => ⟨S512x1, .f32⟩
  | .hbm, ⟨16, _⟩ => ⟨S512, .f32⟩
  | .hbm, ⟨17, _⟩ => ⟨S1x512, .f32⟩
  | .hbm, ⟨18, _⟩ => ⟨S131072x512, .f32⟩
  | .hbm, ⟨19, _⟩ => ⟨S131072x512, .f32⟩
  | .hbm, ⟨20, _⟩ => ⟨S1x512, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S131072x512, .f32⟩
  | .hbm, ⟨32, _⟩ => ⟨S131072x48, .f32⟩
  | .hbm, ⟨33, _⟩ => ⟨S131072x16, .f32⟩
  | .hbm, ⟨34, _⟩ => ⟨S131072x16, .f32⟩
  | .hbm, ⟨35, _⟩ => ⟨S131072x16, .f32⟩
  | .hbm, ⟨36, _⟩ => ⟨S131072x512, .f32⟩
  | .hbm, ⟨37, _⟩ => ⟨S1x512, .f32⟩
  | .hbm, ⟨38, _⟩ => ⟨S131072x512, .f32⟩
  | .hbm, ⟨39, _⟩ => ⟨S131072x512, .f32⟩
  | .hbm, ⟨40, _⟩ => ⟨S_, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S131072x512, .f32⟩
  | .hbm, ⟨45, _⟩ => ⟨S131072x512, .i1⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S131072x512, .f32⟩
  | .hbm, ⟨51, _⟩ => ⟨S131072x512, .f32⟩
  | .hbm, ⟨52, _⟩ => ⟨S131072x512, .f32⟩
  | .hbm, ⟨53, _⟩ => ⟨S131072x512, .f32⟩
  | .hbm, ⟨54, _⟩ => ⟨S131072x16, .f32⟩
  | .hbm, ⟨55, _⟩ => ⟨S_, .f32⟩
  | .hbm, ⟨56, _⟩ => ⟨S131072, .f32⟩
  | .hbm, ⟨57, _⟩ => ⟨S131072x1, .f32⟩
  | .hbm, ⟨58, _⟩ => ⟨S131072x512, .f32⟩
  | .hbm, ⟨59, _⟩ => ⟨S131072x512, .f32⟩
  | .hbm, ⟨60, _⟩ => ⟨S131072x512, .f32⟩
  | .hbm, ⟨61, _⟩ => ⟨S1x512, .f32⟩
  | .hbm, ⟨62, _⟩ => ⟨S131072x512, .f32⟩
  | .hbm, ⟨63, _⟩ => ⟨S131072x512, .f32⟩
  | .hbm, ⟨64, _⟩ => ⟨S131072x512, .f32⟩
  | .hbm, ⟨65, _⟩ => ⟨S131072x512, .f32⟩
  | .hbm, ⟨66, _⟩ => ⟨S131072x512, .f32⟩
  | .hbm, ⟨67, _⟩ => ⟨S_, .f32⟩
  | .hbm, ⟨68, _⟩ => ⟨S131072x512, .f32⟩
  | .hbm, ⟨69, _⟩ => ⟨S131072x512, .f32⟩
  | .hbm, ⟨70, _⟩ => ⟨S_, .f32⟩
  | .hbm, ⟨71, _⟩ => ⟨S131072x512, .f32⟩
  | .hbm, ⟨72, _⟩ => ⟨S131072x512, .f32⟩
  | .hbm, ⟨73, _⟩ => ⟨S131072x512, .f32⟩
  | .hbm, ⟨74, _⟩ => ⟨S131072x512, .f32⟩
  | .hbm, ⟨75, _⟩ => ⟨S131072x256, .f32⟩
  | .hbm, ⟨76, _⟩ => ⟨S131072x256, .f32⟩
  | .hbm, ⟨77, _⟩ => ⟨S_, .f32⟩
  | .hbm, ⟨78, _⟩ => ⟨S131072x256, .f32⟩
  | .hbm, ⟨79, _⟩ => ⟨S131072x256, .f32⟩
  | .hbm, ⟨80, _⟩ => ⟨S8x128x128x256, .f32⟩
  | .hbm, ⟨81, _⟩ => ⟨S8x256x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_0 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩

abbrev nD : Nat := 1
abbrev τ : Topo := Topo.v7x

variable {F : FTy → Type} [FloatOps F]

class Facts₀ : Prop where
  transposes_S8x256x128x128_S8x128x128x256_0_2_3_1 : S8x256x128x128.Transposes [0, 2, 3, 1] S8x128x128x256
  shapeCasts_S8x128x128x256_S131072x256 : S8x128x128x256.ShapeCasts S131072x256
  slices_S131072x1024_S131072x512_0_0 : S131072x1024.Slices ![0, 0] S131072x512
  slices_S131072x1024_S131072x512_0_512 : S131072x1024.Slices ![0, 512] S131072x512
  slices_S512x4_S512x1_0_3 : S512x4.Slices ![0, 3] S512x1
  shapeCasts_S512x1_S512 : S512x1.ShapeCasts S512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  slices_S131072x48_S131072x16_0_0 : S131072x48.Slices ![0, 0] S131072x16
  slices_S131072x48_S131072x16_0_16 : S131072x48.Slices ![0, 16] S131072x16
  slices_S131072x48_S131072x16_0_32 : S131072x48.Slices ![0, 32] S131072x16
  reducesTo_S131072x16_S131072_d1 : S131072x16.ReducesTo [1] S131072
  h_S_ : 0 < S_.numel
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072x256 : S_.BroadcastsInDim S131072x256 (![] : Fin 0 → Fin S131072x256.rank)
  shapeCasts_S131072x256_S8x128x128x256 : S131072x256.ShapeCasts S8x128x128x256
  transposes_S8x128x128x256_S8x256x128x128_0_3_1_2 : S8x128x128x256.Transposes [0, 3, 1, 2] S8x256x128x128
  dot_S131072x256_S256x1024_S131072x1024_1_0_0_1_n_n_wf : DotDims.WF S131072x256 S256x1024 S131072x1024 [1] [0] [0] [1] [] []
  dot_S131072x512_S512x48_S131072x48_1_0_0_1_n_n_wf : DotDims.WF S131072x512 S512x48 S131072x48 [1] [0] [0] [1] [] []
  dot_S131072x16_S16x512_S131072x512_1_0_0_1_n_n_wf : DotDims.WF S131072x16 S16x512 S131072x512 [1] [0] [0] [1] [] []
  dot_S131072x512_S512x256_S131072x256_1_0_0_1_n_n_wf : DotDims.WF S131072x512 S512x256 S131072x256 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x512_S512x48_S131072x48_1_0_0_1_n_n : DotDims S131072x512 S512x48 S131072x48 where
  lhsContracting := [1]
  rhsContracting := [0]
  lhsNonContracting := [0]
  rhsNonContracting := [1]
  lhsBatch := []
  rhsBatch := []
  wf := dot_S131072x512_S512x48_S131072x48_1_0_0_1_n_n_wf
def dot_S131072x16_S16x512_S131072x512_1_0_0_1_n_n : DotDims S131072x16 S16x512 S131072x512 where
  lhsContracting := [1]
  rhsContracting := [0]
  lhsNonContracting := [0]
  rhsNonContracting := [1]
  lhsBatch := []
  rhsBatch := []
  wf := dot_S131072x16_S16x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.Spec.lean ====
/-
  One token of the selective state-space block, as a function on the extended reals.

  A token is a row `u` of 256 channel values. The block projects it to 1024 channels (`proj`), gates the first half
  through the last tap of the depthwise convolution and a SiLU (`conv`), projects that to the step rank and the two
  state vectors `B`, `C` (`dbc`), forms the step size `delta` = softplus of a second projection, takes the single scan
  step from a zero state, `y_d = delta_d · conv_d · ⟨B, C⟩ + D_d · conv_d`, gates it by the SiLU of the second half of
  the first projection (`gated`) and projects back to 256 channels (`rowOut`).

  Both programs compute `rowOut` of every token, so this file states it once, with the two scalar identities they
  need: the softplus written with a never-taken "not a number" branch is the plain one, and doubling then halving an
  extended real gives it back.
-/
import Idealize.ShloMosaic.PureOps.Ideal
import Idealize.ShloMosaic.PureOps.Ideal.Laws
import Idealize.ShloMosaic.Lib.ValueIdx
import Idealize.ShloMosaic.Lib.IdealHost

noncomputable section

namespace Cert.SsmRow

open Idealize.ShloMosaic Idealize.ShloMosaic.ValueIdx

/-- SiLU: `a · σ(a)` with `σ` the logistic function. -/
def silu (a : EReal) : EReal := a * Ideal.logistic a

/-- Softplus in its stable form `max(x, 0) + log(1 + e^(-|x|))`, with `|x| = max(x, -x)`. -/
def softplus (x : EReal) : EReal := max x 0 + Ideal.log1p (Ideal.exp (-(max x (-x))))

/-- Column `d` of the first half of the 1024 projected channels. -/
def lo (d : Fin 512) : Fin 1024 := ⟨d.val, by have := d.isLt; omega⟩
/-- Column `d` of the second half. -/
def hi (d : Fin 512) : Fin 1024 := ⟨512 + d.val, by have := d.isLt; omega⟩
/-- Among the 48 columns of the second projection: the step-rank columns, then `B`, then `C`. -/
def cDt (r : Fin 16) : Fin 48 := ⟨r.val, by have := r.isLt; omega⟩
def cB (s : Fin 16) : Fin 48 := ⟨16 + s.val, by have := s.isLt; omega⟩
def cC (s : Fin 16) : Fin 48 := ⟨32 + s.val, by have := s.isLt; omega⟩

section
variable (u : Fin 256 → EReal) (Win : Fin 256 → Fin 1024 → EReal) (cl cb : Fin 512 → EReal)
  (Wx : Fin 512 → Fin 48 → EReal) (Wdt : Fin 16 → Fin 512 → EReal) (bdt Dv : Fin 512 → EReal)
  (Wout : Fin 512 → Fin 256 → EReal)

/-- The input projection: `(u · W_in)_j`. -/
def proj (j : Fin 1024) : EReal := ∑ k : Fin 256, u k * Win k j

/-- The convolution's last tap, its bias, and the SiLU. -/
def conv (d : Fin 512) : EReal := silu (proj u Win (lo d) * cl d + cb d)

/-- The projection to step rank, `B` and `C`. -/
def dbc (e : Fin 48) : EReal := ∑ d : Fin 512, conv u Win cl cb d * Wx d e

/-- The step size before its softplus. -/
def deltaLin (d : Fin 512) : EReal := (∑ r : Fin 16, dbc u Win cl cb Wx (cDt r) * Wdt r d) + bdt d

/-- `⟨B, C⟩`. -/
def bcDot : EReal := ∑ s : Fin 16, dbc u Win cl cb Wx (cB s) * dbc u Win cl cb Wx (cC s)

/-- The scan step from a zero state, gated by the SiLU of the second half of the input projection. -/
def gated (d : Fin 512) : EReal :=
  (softplus (deltaLin u Win cl cb Wx Wdt bdt d) * conv u Win cl cb d * bcDot u Win cl cb Wx + Dv d * conv u Win cl cb d)
    * silu (proj u Win (hi d))

/-- The output projection. -/
def rowOut (q : Fin 256) : EReal := ∑ d : Fin 512, gated u Win cl cb Wx Wdt bdt Dv d * Wout d q

end

/-! ## The scalar identities -/

/-- An extended real is never different from itself: the "is it a NaN" test answers no, under either reading of
    "different" (ordered or unordered). -/
theorem cmp_one_self (a : EReal) : Ideal.cmp .one a a = 0#1 := by
  simp [Ideal.cmp]

theorem cmp_une_self (a : EReal) : Ideal.cmp .une a a = 0#1 := by
  simp [Ideal.cmp]

/-- The softplus as `logaddexp(x, 0)` spells it — `x + 0` if `x - 0` is a NaN, else `max(x, 0) + log1p(exp(0 - |x - 0|))` —
    is the plain softplus: the guard never fires and the zeros drop out. -/
theorem softplus_guarded_sub (x : EReal) :
    Scalar.select (Ideal.cmp .one (x - 0) (x - 0)) (x + 0) (max x 0 + Ideal.log1p (Ideal.exp (0 - max (x - 0) (-(x - 0)))))
      = softplus x := by
  rw [cmp_one_self, select_zero, sub_zero, zero_sub]; rfl

/-- The same with the negation written as such and the unordered comparison. -/
theorem softplus_guarded_neg (x : EReal) :
    Scalar.select (Ideal.cmp .une (x - 0) (x - 0)) (x + 0) (max x 0 + Ideal.log1p (Ideal.exp (-(max (x - 0) (-(x - 0))))))
      = softplus x := by
  rw [cmp_une_self, select_zero, sub_zero]; rfl

/-- The f32 pattern `0x3F000000` is one half. -/
theorem ofBits_half_f32 : Ideal.ofBits .f32 0x3F000000#32 = (((1 : ℝ) / 2 : ℝ) : EReal) := by
  simp [Ideal.ofBits, Ideal.ieee, -EReal.coe_mul]; norm_num

/-- Doubling then halving gives the number back, at the infinities too. -/
theorem double_half (y : EReal) : (y + y) * (((1 : ℝ) / 2 : ℝ) : EReal) = y := by
  induction y using EReal.rec with
  | bot => simp [EReal.bot_mul_coe_of_pos]
  | top => simp [EReal.top_mul_coe_of_pos]
  | coe r => rw [← EReal.coe_add, ← EReal.coe_mul]; congr 1; ring

end Cert.SsmRow

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.LibMatmul.lean ====
/-
  A matrix product accumulated into zero, read at an entry: rows by columns, over any extents.
-/
import Idealize.ShloMosaic.Lib.ValueLayout
import Idealize.ShloMosaic.PureOps.Ideal.Laws

noncomputable section

namespace Cert.LibMatmul

open Idealize.ShloMosaic Idealize.ShloMosaic.ValueIdx

/-- A kernel's `M×K` by `K×N` product into a zero accumulator, read at `(a, b)`: `∑ c, A[a, c] · B[c, b]`. The record `d`
    is any one whose axis lists are the plain product's (`hd`). -/
theorem matmul_plain_zero_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  subst hd
  -- the sum over the contraction index set, which has one axis of extent k
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- A sum along the columns of an `[a, b]` array into `[a]`, read at `p`: `∑ c, v[p, c]`. -/
theorem rowSum_apply {a b : Nat} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ c : Fin b, v (ix2 p c) := by
  rw [Ideal.multiReduction_add_single]
  refine Finset.sum_congr rfl fun c _ => congrArg v ?_
  funext ax; apply Fin.ext
  match ax with
  | ⟨0, _⟩ => rfl
  | ⟨1, _⟩ => rfl

end Cert.LibMatmul

end
-- ==== Proof.KernelPayload.lean ====
/-
  One block of 1024 tokens through the kernel body, read entry by entry.

  The body's stored value is a chain of whole-block operations: four matrix products into zero accumulators, column
  slices, rows broadcast over the block, a row sum kept as a column, and pointwise arithmetic. Read at row `p` every
  one of them looks only at row `p` of the token block, so the stored block at `(p, q)` is the row function `rowOut` of
  token `p` and of the weights. The stages below follow the specification's: projection, convolution tap and SiLU,
  second projection and its three column groups, step size, `⟨B, C⟩`, the gated scan step, output projection.
-/
import proofs.«146968_j14388140441602_1_alg».proof.Proof.Gen.KernelIdeal.Skeleton
import proofs.«146968_j14388140441602_1_alg».proof.Proof.Spec
import proofs.«146968_j14388140441602_1_alg».proof.Proof.LibLayout
import proofs.«146968_j14388140441602_1_alg».proof.Proof.LibMatmul
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.SsmRow

/-- Row `p` of a block of tokens. -/
abbrev tok (v0 : FVec Ideal S1024x256 .f32) (p : Fin 1024) : Fin 256 → EReal := fun k => v0 (ix2 p k)
/-- A weight matrix by its two coordinates. -/
abbrev mat {a b : Nat} (M : FVec Ideal ⟨2, ![a, b]⟩ .f32) : Fin a → Fin b → EReal := fun i j => M (ix2 i j)
/-- A `[1, b]` row by its coordinate. -/
abbrev row {b : Nat} (M : FVec Ideal ⟨2, ![1, b]⟩ .f32) : Fin b → EReal := fun j => M (ix2 (0 : Fin 1) j)

/-! ## The layout operations of the body, read at an entry -/

theorem dotIn_eq : dot_S1024x256_S256x1024_S1024x1024_1_0_0_1_n_n = DotDims.plain 1024 256 1024 := rfl
theorem dotX_eq : dot_S1024x512_S512x48_S1024x48_1_0_0_1_n_n = DotDims.plain 1024 512 48 := rfl
theorem dotDt_eq : dot_S1024x16_S16x512_S1024x512_1_0_0_1_n_n = DotDims.plain 1024 16 512 := rfl
theorem dotOut_eq : dot_S1024x512_S512x256_S1024x256_1_0_0_1_n_n = DotDims.plain 1024 512 256 := rfl

theorem mmIn {φ₁ φ₂ : FTy} (A : FVec Ideal S1024x256 φ₁) (B : FVec Ideal S256x1024 φ₂) (p : Fin 1024) (j : Fin 1024) :
    FloatOps.matmul dot_S1024x256_S256x1024_S1024x1024_1_0_0_1_n_n none A B (constant S1024x1024 .f32 0x00000000#32) (ix2 p j)
      = ∑ c : Fin 256, A (ix2 p c) * B (ix2 c j) :=
  Cert.LibMatmul.matmul_plain_zero_apply _ dotIn_eq none A B p j

theorem mmX {φ₁ φ₂ : FTy} (A : FVec Ideal S1024x512 φ₁) (B : FVec Ideal S512x48 φ₂) (p : Fin 1024) (e : Fin 48) :
    FloatOps.matmul dot_S1024x512_S512x48_S1024x48_1_0_0_1_n_n none A B (constant S1024x48 .f32 0x00000000#32) (ix2 p e)
      = ∑ c : Fin 512, A (ix2 p c) * B (ix2 c e) :=
  Cert.LibMatmul.matmul_plain_zero_apply _ dotX_eq none A B p e

theorem mmDt {φ₁ φ₂ : FTy} (A : FVec Ideal S1024x16 φ₁) (B : FVec Ideal S16x512 φ₂) (p : Fin 1024) (d : Fin 512) :
    FloatOps.matmul dot_S1024x16_S16x512_S1024x512_1_0_0_1_n_n none A B (constant S1024x512 .f32 0x00000000#32) (ix2 p d)
      = ∑ c : Fin 16, A (ix2 p c) * B (ix2 c d) :=
  Cert.LibMatmul.matmul_plain_zero_apply _ dotDt_eq none A B p d

theorem mmOut {φ₁ φ₂ : FTy} (A : FVec Ideal S1024x512 φ₁) (B : FVec Ideal S512x256 φ₂) (p : Fin 1024) (q : Fin 256) :
    FloatOps.matmul dot_S1024x512_S512x256_S1024x256_1_0_0_1_n_n none A B (constant S1024x256 .f32 0x00000000#32) (ix2 p q)
      = ∑ c : Fin 512, A (ix2 p c) * B (ix2 c q) :=
  Cert.LibMatmul.matmul_plain_zero_apply _ dotOut_eq none A B p q

/-- The first 512 of 1024 columns. -/
theorem slice_lo (X : FVec Ideal S1024x1024 .f32) (h : S1024x1024.Slices ![0, 0] S1024x512) (p : Fin 1024) (d : Fin 512) :
    extractStridedSlice S1024x512 ![0, 0] X h (ix2 p d) = X (ix2 p (lo d)) :=
  slice2_axis1_apply 0 X h p d (lo d) (Nat.zero_add _).symm
/-- The last 512 of 1024 columns. -/
theorem slice_hi (X : FVec Ideal S1024x1024 .f32) (h : S1024x1024.Slices ![0, 512] S1024x512) (p : Fin 1024) (d : Fin 512) :
    extractStridedSlice S1024x512 ![0, 512] X h (ix2 p d) = X (ix2 p (hi d)) :=
  slice2_axis1_apply 512 X h p d (hi d) rfl
/-- Of the 48 columns: the step-rank group, `B`, `C`. -/
theorem slice_dt (X : FVec Ideal S1024x48 .f32) (h : S1024x48.Slices ![0, 0] S1024x16) (p : Fin 1024) (r : Fin 16) :
    extractStridedSlice S1024x16 ![0, 0] X h (ix2 p r) = X (ix2 p (cDt r)) :=
  slice2_axis1_apply 0 X h p r (cDt r) (Nat.zero_add _).symm
theorem slice_B (X : FVec Ideal S1024x48 .f32) (h : S1024x48.Slices ![0, 16] S1024x16) (p : Fin 1024) (s : Fin 16) :
    extractStridedSlice S1024x16 ![0, 16] X h (ix2 p s) = X (ix2 p (cB s)) :=
  slice2_axis1_apply 16 X h p s (cB s) rfl
theorem slice_C (X : FVec Ideal S1024x48 .f32) (h : S1024x48.Slices ![0, 32] S1024x16) (p : Fin 1024) (s : Fin 16) :
    extractStridedSlice S1024x16 ![0, 32] X h (ix2 p s) = X (ix2 p (cC s)) :=
  slice2_axis1_apply 32 X h p s (cC s) rfl

/-- A `[1, 512]` row spread over the block's rows. -/
theorem bcast_row (v : FVec Ideal S1x512 .f32) (h : S1x512.Broadcasts S1024x512) (p : Fin 1024) (d : Fin 512) :
    broadcastTo S1024x512 v h (ix2 p d) = v (ix2 (0 : Fin 1) d) :=
  broadcastTo_1b_ab_apply v h p d

/-- The row sums, kept as a `[1024, 1]` column and spread over the 512 columns. -/
theorem bcast_rowSum (v : FVec Ideal S1024x16 .f32) (h1 : S1024x16.Reduces [1] S1024) (hφ : FKind.Formats .f32)
    (hacc : (0x00000000#32 : BitVec 32) = 0x00000000#32) (h2 : S1024.ShapeCasts S1024x1)
    (h3 : S1024x1.Broadcasts S1024x512) (p : Fin 1024) (d : Fin 512) :
    broadcastTo S1024x512 (shapeCast S1024x1 (multiReduction .add [1] S1024 v 0x00000000#32 h1 hφ hacc) h2) h3 (ix2 p d)
      = ∑ s : Fin 16, v (ix2 p s) := by
  rw [Cert.LibLayout.broadcastTo_a1_ab_apply, Cert.LibLayout.shapeCast_a_a1_apply]
  exact Cert.LibMatmul.rowSum_apply v 0x00000000#32 h1 hφ hacc p

/-! ## The stages -/

section
variable (v0 : FVec Ideal S1024x256 .f32) (v3 : FVec Ideal S256x1024 .f32) (v8 v10 : FVec Ideal S1x512 .f32)
  (v19 : FVec Ideal S512x48 .f32) (v25 : FVec Ideal S16x512 .f32) (v27 v50 : FVec Ideal S1x512 .f32)
  (v61 : FVec Ideal S512x256 .f32)

/-- The input projection of token `p`. -/
theorem pay2_apply (p : Fin 1024) (j : Fin 1024) :
    k0_pay2 (F := Ideal) v0 v3 (ix2 p j) = proj (tok v0 p) (mat v3) j := by
  unfold k0_pay2
  simp only [matmul, mmIn, truncf_apply, shapeCast_self]
  rfl

/-- Its second half, the gate. -/
theorem pay3_apply (p : Fin 1024) (d : Fin 512) :
    k0_pay3 (F := Ideal) v0 v3 (ix2 p d) = proj (tok v0 p) (mat v3) (hi d) := by
  unfold k0_pay3
  simp only [slice_hi, pay2_apply]

/-- The convolution's last tap, its bias, and the SiLU. -/
theorem pay4_apply (p : Fin 1024) (d : Fin 512) :
    k0_pay4 (F := Ideal) v0 v3 v8 v10 (ix2 p d) = conv (tok v0 p) (mat v3) (row v8) (row v10) d := by
  unfold k0_pay4
  simp only [mulf, addf, logistic, slice_lo, pay2_apply, bcast_row, shapeCast_self, Ideal.mulf_def, Ideal.addf_def,
    Ideal.logistic_def]
  rfl

/-- The projection to step rank, `B` and `C`. -/
theorem pay5_apply (p : Fin 1024) (e : Fin 48) :
    k0_pay5 (F := Ideal) v0 v3 v8 v10 v19 (ix2 p e) = dbc (tok v0 p) (mat v3) (row v8) (row v10) (mat v19) e := by
  unfold k0_pay5
  simp only [matmul, mmX, truncf_apply, pay4_apply]
  rfl

theorem pay6_apply (p : Fin 1024) (s : Fin 16) :
    k0_pay6 (F := Ideal) v0 v3 v8 v10 v19 (ix2 p s) = dbc (tok v0 p) (mat v3) (row v8) (row v10) (mat v19) (cB s) := by
  unfold k0_pay6
  simp only [slice_B, pay5_apply]

theorem pay7_apply (p : Fin 1024) (s : Fin 16) :
    k0_pay7 (F := Ideal) v0 v3 v8 v10 v19 (ix2 p s) = dbc (tok v0 p) (mat v3) (row v8) (row v10) (mat v19) (cC s) := by
  unfold k0_pay7
  simp only [slice_C, pay5_apply]

/-- The step size before its softplus. -/
theorem pay8_apply (p : Fin 1024) (d : Fin 512) :
    k0_pay8 (F := Ideal) v0 v3 v8 v10 v19 v25 v27 (ix2 p d)
      = deltaLin (tok v0 p) (mat v3) (row v8) (row v10) (mat v19) (mat v25) (row v27) d := by
  unfold k0_pay8
  simp only [matmul, addf, mmDt, truncf_apply, slice_dt, pay5_apply, bcast_row, shapeCast_self, Ideal.addf_def]
  rfl

/-- A scalar constant at the extended reals is its pattern's value. -/
theorem scalar_ofBits (φ : FTy) (b : BitVec φ.bits) : Scalar.ofBits (F := Ideal) φ b = Ideal.ofBits φ b := rfl

/-- The stored block at `(p, q)`: the softplus of the step size, the scan step from a zero state with `⟨B, C⟩` as a
    row sum, the gate, and the output projection — `rowOut` of token `p`. -/
theorem out_apply (p : Fin 1024) (q : Fin 256) :
    k0_pay1 (F := Ideal) (k0_pay3 (F := Ideal) v0 v3) (k0_pay4 (F := Ideal) v0 v3 v8 v10) (k0_pay6 (F := Ideal) v0 v3 v8 v10 v19) (k0_pay7 (F := Ideal) v0 v3 v8 v10 v19)
        (k0_pay9 (F := Ideal) v0 v3 v8 v10 v19 v25 v27) (k0_pay11 (F := Ideal) v0 v3 v8 v10 v19 v25 v27) (k0_pay12 (F := Ideal) v0 v3 v8 v10 v19 v25 v27)
        (k0_pay13 (F := Ideal) v0 v3 v8 v10 v19 v25 v27) v50 v61 (ix2 p q)
      = rowOut (tok v0 p) (mat v3) (row v8) (row v10) (mat v19) (mat v25) (row v27) (row v50) (mat v61) q := by
  unfold k0_pay1 k0_pay9 k0_pay11 k0_pay12 k0_pay13 k0_pay10
  simp only [matmul, mmOut, truncf_apply, mulf, addf, subf, logistic, exp, log1p, absf, maximumf, cmpf, select, broadcast,
    bcast_row, shapeCast_self, pay3_apply, pay4_apply, pay6_apply, pay7_apply, pay8_apply,
    Ideal.mulf_def, Ideal.addf_def, Ideal.subf_def, Ideal.logistic_def, Ideal.exp_def, Ideal.log1p_def,
    Ideal.maximumf_def, Ideal.absf_def, Ideal.cmpf_def, scalar_ofBits, Ideal.ofBits_zero_f32, softplus_guarded_sub]
  -- what is left is the row sum `⟨B, C⟩`, one factor of the scan step
  unfold rowOut gated
  refine Finset.sum_congr rfl fun c _ => ?_
  refine congrArg (· * v61 (ix2 c q)) ?_
  refine congrArg (· * (proj (tok v0 p) (mat v3) (hi c) * Ideal.logistic (proj (tok v0 p) (mat v3) (hi c)))) ?_
  refine congrArg (· + v50 (ix2 0 c) * conv (tok v0 p) (mat v3) (row v8) (row v10) c) ?_
  refine congrArg (softplus (deltaLin (tok v0 p) (mat v3) (row v8) (row v10) (mat v19) (mat v25) (row v27) c)
    * conv (tok v0 p) (mat v3) (row v8) (row v10) c * ·) ?_
  refine (bcast_rowSum _ _ _ _ _ _ p c).trans ?_
  simp only [mulf, Ideal.mulf_def, pay6_apply, pay7_apply]
  rfl

end

end Cert.KernelIdeal.Payload

end
-- ==== Proof.KernelValue.lean ====
/-
  From blocks of 1024 tokens to the whole token matrix, and around the kernel.

  The kernel runs 128 grid points. Point `t` reads rows `1024·t … 1024·t + 1023` of the token matrix and every weight
  whole, and writes the same rows of the result. Entry `(p, q)` of what it writes is `rowOut` of token `1024·t + p`
  (KernelPayload), so the 128 written blocks are the restrictions of ONE function of the token matrix, `tokenwise`, and
  they tile the result: after the run the result array is `tokenwise`. The operations before the kernel only re-lay
  the arguments (the image flattened to tokens, vectors made rows), those after it re-lay the result back to an image.
-/
import proofs.«146968_j14388140441602_1_alg».proof.Proof.Gen.KernelIdeal.Frame
import proofs.«146968_j14388140441602_1_alg».proof.Proof.KernelPayload
import Idealize.ShloMosaic.Lib.Pipeline.Value
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.SsmRow Cert.KernelIdeal.Payload
open Idealize.ShloMosaic.Pipeline (Dat Cfg Window)

variable (m : (ℓ : Loc nD τ sig) → Buf (Elt Ideal) ℓ) (ρ : Dev nD → PrngReg)

/-! ## The arrays the kernel's windows read, as the kernel finds them -/

/-- The token matrix. -/
abbrev xs (c : Dev nD) : FVec Ideal S131072x256 .f32 := V m c main_v1
abbrev wIn (c : Dev nD) : FVec Ideal S256x1024 .f32 := V m c main_arg1
abbrev tapRow (c : Dev nD) : FVec Ideal S1x512 .f32 := V m c main_v4
abbrev biasRow (c : Dev nD) : FVec Ideal S1x512 .f32 := V m c main_v5
abbrev wX (c : Dev nD) : FVec Ideal S512x48 .f32 := V m c main_arg4
abbrev wDt (c : Dev nD) : FVec Ideal S16x512 .f32 := V m c main_arg5
abbrev bDtRow (c : Dev nD) : FVec Ideal S1x512 .f32 := V m c main_v6
abbrev dRow (c : Dev nD) : FVec Ideal S1x512 .f32 := V m c main_v7
abbrev wOut (c : Dev nD) : FVec Ideal S512x256 .f32 := V m c main_arg9

/-- The block applied to every token: entry `(n, q)` is `rowOut` of row `n`. -/
def tokenwise (c : Dev nD) : FVec Ideal S131072x256 .f32 := fun i =>
  rowOut (fun k => xs m c (ix2 (i 0) k)) (mat (wIn m c)) (row (tapRow m c)) (row (biasRow m c)) (mat (wX m c))
    (mat (wDt m c)) (row (bDtRow m c)) (row (dRow m c)) (mat (wOut m c)) (i 1)

/-! ## Where each grid point's blocks lie -/

theorem hz : (![0, 0] : Fin 2 → Nat) = fun _ => 0 := funext fun a => by fin_cases a <;> rfl

/-- The printed index maps over the 128 points: the token window and the result window are at block row `t`, every
    weight window at its one block. -/
theorem idx_facts : ∀ t : Fin cfg0.N, win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

theorem t_lt (t : Fin cfg0.N) : t.val < 128 := lt_of_lt_of_eq t.isLt N_0

/-- Token `p` of point `t`'s block is token `1024·t + p`. -/
def rowAt (t : Fin cfg0.N) (p : Fin 1024) : Fin 131072 := ⟨t.val * 1024 + p.val, by have := t_lt t; have := p.isLt; omega⟩

/-- The token window's block at point `t`, entry `(p, k)`. -/
theorem blk0 (c : Dev nD) (t : Fin cfg0.N) (p : Fin 1024) (k : Fin 256) :
    (iblk m c 0 t : FVec Ideal S1024x256 .f32) (ix2 p k) = xs m c (ix2 (rowAt t p) k) := by
  show V m c main_v1 (((cfg0.win 0).blk t).view.emb (ix2 p k)) = V m c main_v1 (ix2 (rowAt t p) k)
  refine congrArg (V m c main_v1) (funext fun a => Fin.ext ?_)
  obtain ⟨a0, a1, o0, o1, z10, z11, z20, z21, z30, z31, z40, z41, z50, z51, z60, z61, z70, z71, z80, z81⟩ := idx_facts t
  match a with
  | ⟨0, _⟩ => show win0_0.index t (0 : Fin 2) * 1024 + 1 * p.val = t.val * 1024 + p.val; omega
  | ⟨1, _⟩ => show win0_0.index t (1 : Fin 2) * 256 + 1 * k.val = k.val; omega

/-- The result window's block at point `t` sits at the same rows. -/
theorem emb9 (t : Fin cfg0.N) (p : Fin 1024) (q : Fin 256) :
    ((cfg0.win 9).blk t).view.emb (ix2 p q) = ix2 (rowAt t p) q := by
  funext a; apply Fin.ext
  obtain ⟨a0, a1, o0, o1, z10, z11, z20, z21, z30, z31, z40, z41, z50, z51, z60, z61, z70, z71, z80, z81⟩ := idx_facts t
  match a with
  | ⟨0, _⟩ => show win0_9.index t (0 : Fin 2) * 1024 + 1 * p.val = t.val * 1024 + p.val; omega
  | ⟨1, _⟩ => show win0_9.index t (1 : Fin 2) * 256 + 1 * q.val = q.val; omega

/-! Each weight window's one block is the whole array. -/

theorem blk1 (c : Dev nD) (t : Fin cfg0.N) : (iblk m c 1 t : FVec Ideal S256x1024 .f32) = wIn m c := by
  funext y
  show V m c main_arg1 (((cfg0.win 1).blk t).view.emb y) = V m c main_arg1 y
  refine congrArg (V m c main_arg1) (funext fun a => Fin.ext ?_)
  obtain ⟨a0, a1, o0, o1, z10, z11, z20, z21, z30, z31, z40, z41, z50, z51, z60, z61, z70, z71, z80, z81⟩ := idx_facts t
  match a with
  | ⟨0, _⟩ => show win0_1.index t (0 : Fin 2) * 256 + 1 * (y 0).val = (y 0).val; omega
  | ⟨1, _⟩ => show win0_1.index t (1 : Fin 2) * 1024 + 1 * (y 1).val = (y 1).val; omega

theorem blk2 (c : Dev nD) (t : Fin cfg0.N) : (iblk m c 2 t : FVec Ideal S1x512 .f32) = tapRow m c := by
  funext y
  show V m c main_v4 (((cfg0.win 2).blk t).view.emb y) = V m c main_v4 y
  refine congrArg (V m c main_v4) (funext fun a => Fin.ext ?_)
  obtain ⟨a0, a1, o0, o1, z10, z11, z20, z21, z30, z31, z40, z41, z50, z51, z60, z61, z70, z71, z80, z81⟩ := idx_facts t
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem blk3 (c : Dev nD) (t : Fin cfg0.N) : (iblk m c 3 t : FVec Ideal S1x512 .f32) = biasRow m c := by
  funext y
  show V m c main_v5 (((cfg0.win 3).blk t).view.emb y) = V m c main_v5 y
  refine congrArg (V m c main_v5) (funext fun a => Fin.ext ?_)
  obtain ⟨a0, a1, o0, o1, z10, z11, z20, z21, z30, z31, z40, z41, z50, z51, z60, z61, z70, z71, z80, z81⟩ := idx_facts t
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem blk4 (c : Dev nD) (t : Fin cfg0.N) : (iblk m c 4 t : FVec Ideal S512x48 .f32) = wX m c := by
  funext y
  show V m c main_arg4 (((cfg0.win 4).blk t).view.emb y) = V m c main_arg4 y
  refine congrArg (V m c main_arg4) (funext fun a => Fin.ext ?_)
  obtain ⟨a0, a1, o0, o1, z10, z11, z20, z21, z30, z31, z40, z41, z50, z51, z60, z61, z70, z71, z80, z81⟩ := idx_facts t
  match a with
  | ⟨0, _⟩ => show win0_4.index t (0 : Fin 2) * 512 + 1 * (y 0).val = (y 0).val; omega
  | ⟨1, _⟩ => show win0_4.index t (1 : Fin 2) * 48 + 1 * (y 1).val = (y 1).val; omega

theorem blk5 (c : Dev nD) (t : Fin cfg0.N) : (iblk m c 5 t : FVec Ideal S16x512 .f32) = wDt m c := by
  funext y
  show V m c main_arg5 (((cfg0.win 5).blk t).view.emb y) = V m c main_arg5 y
  refine congrArg (V m c main_arg5) (funext fun a => Fin.ext ?_)
  obtain ⟨a0, a1, o0, o1, z10, z11, z20, z21, z30, z31, z40, z41, z50, z51, z60, z61, z70, z71, z80, z81⟩ := idx_facts t
  match a with
  | ⟨0, _⟩ => show win0_5.index t (0 : Fin 2) * 16 + 1 * (y 0).val = (y 0).val; omega
  | ⟨1, _⟩ => show win0_5.index t (1 : Fin 2) * 512 + 1 * (y 1).val = (y 1).val; omega

theorem blk6 (c : Dev nD) (t : Fin cfg0.N) : (iblk m c 6 t : FVec Ideal S1x512 .f32) = bDtRow m c := by
  funext y
  show V m c main_v6 (((cfg0.win 6).blk t).view.emb y) = V m c main_v6 y
  refine congrArg (V m c main_v6) (funext fun a => Fin.ext ?_)
  obtain ⟨a0, a1, o0, o1, z10, z11, z20, z21, z30, z31, z40, z41, z50, z51, z60, z61, z70, z71, z80, z81⟩ := idx_facts t
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem blk7 (c : Dev nD) (t : Fin cfg0.N) : (iblk m c 7 t : FVec Ideal S1x512 .f32) = dRow m c := by
  funext y
  show V m c main_v7 (((cfg0.win 7).blk t).view.emb y) = V m c main_v7 y
  refine congrArg (V m c main_v7) (funext fun a => Fin.ext ?_)
  obtain ⟨a0, a1, o0, o1, z10, z11, z20, z21, z30, z31, z40, z41, z50, z51, z60, z61, z70, z71, z80, z81⟩ := idx_facts t
  match a with
  | ⟨0, _⟩ => show win0_7.index t (0 : Fin 2) * 1 + 1 * (y 0).val = (y 0).val; omega
  | ⟨1, _⟩ => show win0_7.index t (1 : Fin 2) * 512 + 1 * (y 1).val = (y 1).val; omega

theorem blk8 (c : Dev nD) (t : Fin cfg0.N) : (iblk m c 8 t : FVec Ideal S512x256 .f32) = wOut m c := by
  funext y
  show V m c main_arg9 (((cfg0.win 8).blk t).view.emb y) = V m c main_arg9 y
  refine congrArg (V m c main_arg9) (funext fun a => Fin.ext ?_)
  obtain ⟨a0, a1, o0, o1, z10, z11, z20, z21, z30, z31, z40, z41, z50, z51, z60, z61, z70, z71, z80, z81⟩ := idx_facts t
  match a with
  | ⟨0, _⟩ => show win0_8.index t (0 : Fin 2) * 512 + 1 * (y 0).val = (y 0).val; omega
  | ⟨1, _⟩ => show win0_8.index t (1 : Fin 2) * 256 + 1 * (y 1).val = (y 1).val; omega

/-! ## What a point writes back, the cover, and the result array -/

/-- WHAT POINT `t` WRITES BACK is block `t` of `tokenwise`. -/
theorem flushed_eq (c : Dev nD) (t : Fin cfg0.N) :
    (dats m 0 c).flushed 9 t = ((cfg0.win 9).blk t).view.read (Elt Ideal) (tokenwise m c) := by
  show (cfg0.win 9).cut (grid0.coords t) ((dats m 0 c).after 9 t) = _
  rw [after0_9]
  unfold out0_9
  rw [View.canon_unit_zero hz]
  simp only [View.ld_unit_zero (S := S1024x256) hz, View.ld_unit_zero (S := S256x1024) hz, View.ld_unit_zero (S := S1x512) hz,
    View.ld_unit_zero (S := S512x48) hz, View.ld_unit_zero (S := S16x512) hz, View.ld_unit_zero (S := S512x256) hz]
  funext y
  obtain ⟨p, q, rfl⟩ : ∃ (p : Fin 1024) (q : Fin 256), y = ix2 p q := ⟨y 0, y 1, eq_ix2 y⟩
  refine (out_apply (iblk m c 0 t) (iblk m c 1 t) (iblk m c 2 t) (iblk m c 3 t) (iblk m c 4 t) (iblk m c 5 t) (iblk m c 6 t)
    (iblk m c 7 t) (iblk m c 8 t) p q).trans ?_
  show _ = tokenwise m c (((cfg0.win 9).blk t).view.emb (ix2 p q))
  rw [emb9]
  have e0 : tok (iblk m c 0 t) p = fun k => xs m c (ix2 (rowAt t p) k) := funext fun k => blk0 m c t p k
  rw [e0, blk1 m c t, blk2 m c t, blk3 m c t, blk4 m c t, blk5 m c t, blk6 m c t, blk7 m c t, blk8 m c t]
  rfl

/-- An index of the result is in point `t`'s block iff each coordinate is in the block's range on its axis. -/
theorem mem_blk (t : Fin cfg0.N) (i : S131072x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v8).slice (win0_9.rect t)).set ↔ _
  rw [View.set_slice_whole, Rect.mem_set_unit]
  exact Iff.rfl

/-- Every row of the result is in the block of the point `row / 1024`. -/
theorem cover (i : S131072x256.Idx) : ∃ t : Fin cfg0.N, (cfg0.win 9).flush t = true ∧ i ∈ ((cfg0.win 9).blk t).view.set := by
  have hi0 : (i 0).val < 131072 := (i 0).isLt
  have hi1 : (i 1).val < 256 := (i 1).isLt
  let t : Fin cfg0.N := ⟨(i 0).val / 1024, lt_of_lt_of_eq (by omega : (i 0).val / 1024 < 128) N_0.symm⟩
  refine ⟨t, flush0_9 t, ?_⟩
  rw [mem_blk]
  obtain ⟨a0, a1, o0, o1, z10, z11, z20, z21, z30, z31, z40, z41, z50, z51, z60, z61, z70, z71, z80, z81⟩ := idx_facts t
  have ht : t.val = (i 0).val / 1024 := rfl
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

/-- THE RESULT ARRAY after the run is `tokenwise`. -/
theorem final (c : Dev nD) : (dats m 0 c).arrAt 9 cfg0.N = tokenwise m c :=
  (dats m 0 c).arrAt_eq_of_cover 9 (tokenwise m c) (fun t _ => flushed_eq m c t) (cover)

/-! ## Around the kernel -/

/-- The token matrix is the image with channels last, flattened. -/
theorem xs_eq (c : Dev nD) :
    xs m c = shapeCast S131072x256 (transpose S8x128x128x256 [0, 2, 3, 1] (m ((c : Thread nD τ).loc main_arg0))
      transposes_S8x256x128x128_S8x128x128x256_0_2_3_1) shapeCasts_S8x128x128x256_S131072x256 := by
  show StableHlo.after hostOps0 (fun b => m (c, b)) (Proc.devRef .tc main_v1) = _
  after_results
  rfl

/-- The convolution's last tap as a row: column 3 of the 512×4 filter. -/
theorem tapRow_eq (c : Dev nD) :
    tapRow m c = shapeCast S1x512 (shapeCast S512 (extractStridedSlice S512x1 ![0, 3] (m ((c : Thread nD τ).loc main_arg2))
      slices_S512x4_S512x1_0_3) shapeCasts_S512x1_S512) shapeCasts_S512_S1x512 := by
  show StableHlo.after hostOps0 (fun b => m (c, b)) (Proc.devRef .tc main_v4) = _
  after_results
  rfl

/-- The three per-channel vectors as rows. -/
theorem biasRow_eq (c : Dev nD) : biasRow m c = shapeCast S1x512 (m ((c : Thread nD τ).loc main_arg3)) shapeCasts_S512_S1x512 := by
  show StableHlo.after hostOps0 (fun b => m (c, b)) (Proc.devRef .tc main_v5) = _
  after_results
  rfl
theorem bDtRow_eq (c : Dev nD) : bDtRow m c = shapeCast S1x512 (m ((c : Thread nD τ).loc main_arg6)) shapeCasts_S512_S1x512 := by
  show StableHlo.after hostOps0 (fun b => m (c, b)) (Proc.devRef .tc main_v6) = _
  after_results
  rfl
theorem dRow_eq (c : Dev nD) : dRow m c = shapeCast S1x512 (m ((c : Thread nD τ).loc main_arg8)) shapeCasts_S512_S1x512 := by
  show StableHlo.after hostOps0 (fun b => m (c, b)) (Proc.devRef .tc main_v7) = _
  after_results
  rfl

/-- A token matrix laid back out as an image, channels second. -/
def toImage (y : FVec Ideal S131072x256 .f32) : FVec Ideal S8x256x128x128 .f32 :=
  transpose S8x256x128x128 [0, 3, 1, 2] (shapeCast S8x128x128x256 y shapeCasts_S131072x256_S8x128x128x256)
    transposes_S8x128x128x256_S8x256x128x128_0_3_1_2

/-- The operations after the kernel lay the result array out as an image. -/
theorem tail_eq (c : Dev nD) :
    Pipeline.afterTail₀ cfgs (dats m) 0 (V0 m) [hostOps1] c main_v10 = toImage (tokenwise m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.tc.devRef main_v8)
      = tokenwise m c :=
    (Pipeline.withArrays_arr spec0 launch0.win.arr_inj c _ _ 9).trans (final m c)
  rw [hw]
  rfl

/-! ## The run, read -/

/-- Every weakly fair execution of the kernel program ends with the image of `tokenwise` in its result and its
    arguments unchanged. -/
theorem run : θ_run defs (onTc (τ := τ) (main (F := Ideal))) ⟨m, fun _ => 0, ρ⟩ (fun r => ∀ c : Dev nD,
      r.2.mem ((c.tc : Thread nD τ).loc main_v10) = toImage (tokenwise m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v10 (Pipeline.mem_restRefs_of main_v10 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c)))⟩)
    (run_main m ρ)

end Cert.KernelIdeal.KernelValue

end
-- ==== Proof.RefValue.lean ====
/-
  The reference, read one token at a time.

  The reference flattens the image into 131072 tokens of 256 channels (its array `val_main_v1`) and runs the state-space
  block on all of them at once. Every stage of it is row-wise: entry (n, ·) of a stage depends on row n of the token
  matrix and on the weights only. This file follows the stages in program order and identifies each, at row n, with the
  corresponding function of the row-level specification (Spec.lean): the input projection, the convolution tap with its
  SiLU, the projection to step rank / B / C, the step size and its softplus, the inner product of B and C, the gated
  scan step, and the output projection. The last three operations add the result to itself and halve it, which gives
  it back. The token matrix and the convolution's last tap stay opaque arrays throughout.
-/
import proofs.«146968_j14388140441602_1_alg».proof.Proof.Gen.ReferenceIdeal.Read
import proofs.«146968_j14388140441602_1_alg».proof.Proof.Spec

noncomputable section

namespace Cert.ReferenceIdeal.RefValue

open Idealize.ShloMosaic Idealize.ShloMosaic.ValueIdx Cert.ReferenceIdeal Cert.ReferenceIdeal.Read Cert.SsmRow

/-! ## Two scalar spellings -/

/-- SiLU as the reference spells it: `a · (1 / (1 + e^(-a)))`, the ones given as f32 words. -/
theorem silu_spelled (a : Ideal .f32) :
    FloatOps.mulf a (FloatOps.hostDivf (FloatOps.ofBits (F := Ideal) .f32 0x3F800000#32)
      (FloatOps.addf (FloatOps.ofBits (F := Ideal) .f32 0x3F800000#32) (FloatOps.hostUnary .exp (FloatOps.hostNegf a))))
      = silu a := by
  simp only [Ideal.mulf_def, Ideal.hostDivf_def, Ideal.ofBits_def, Ideal.ofBits_one_f32, Ideal.addf_def,
    Ideal.hostUnary_exp_def, Ideal.hostNegf_def, Ideal.negf_def]
  rfl

/-- Softplus as the reference spells it: the guarded `logaddexp(x, 0)`, the zero given as an f32 word. -/
theorem softplus_spelled (x : Ideal .f32) :
    Scalar.select
        (FloatOps.cmpf .une (FloatOps.subf x (FloatOps.ofBits (F := Ideal) .f32 0x00000000#32))
          (FloatOps.subf x (FloatOps.ofBits (F := Ideal) .f32 0x00000000#32)))
        (FloatOps.addf x (FloatOps.ofBits (F := Ideal) .f32 0x00000000#32))
        (FloatOps.addf (FloatOps.maximumf x (FloatOps.ofBits (F := Ideal) .f32 0x00000000#32))
          (FloatOps.hostUnary .log1p (FloatOps.hostUnary .exp (FloatOps.hostNegf
            (FloatOps.hostAbsf (FloatOps.subf x (FloatOps.ofBits (F := Ideal) .f32 0x00000000#32)))))))
      = softplus x := by
  simp only [Ideal.ofBits_def, Ideal.ofBits_zero_f32, Ideal.cmpf_def, Ideal.subf_def, Ideal.addf_def, Ideal.maximumf_def,
    Ideal.hostUnary_log1p_def, Ideal.hostUnary_exp_def, Ideal.hostNegf_def, Ideal.hostAbsf_def, Ideal.negf_def,
    Ideal.absf_def]
  exact softplus_guarded_neg x

/-! ## The arguments of the specification, read off the reference's arrays -/

section
variable (x0 : (⟨S8x256x128x128, .f32⟩ : BufTy).Contents (Elt Ideal)) (x1 : (⟨S256x1024, .f32⟩ : BufTy).Contents (Elt Ideal))
  (x2 : (⟨S512x4, .f32⟩ : BufTy).Contents (Elt Ideal)) (x3 : (⟨S512, .f32⟩ : BufTy).Contents (Elt Ideal))
  (x4 : (⟨S512x48, .f32⟩ : BufTy).Contents (Elt Ideal)) (x5 : (⟨S16x512, .f32⟩ : BufTy).Contents (Elt Ideal))
  (x6 x8 : (⟨S512, .f32⟩ : BufTy).Contents (Elt Ideal)) (x9 : (⟨S512x256, .f32⟩ : BufTy).Contents (Elt Ideal))

/-- Row `n` of the token matrix. -/
abbrev tok (n : Fin 131072) : Fin 256 → EReal := fun k => val_main_v1 (F := Ideal) x0 (ix2 n k)
/-- The convolution's last tap, one value per inner channel. -/
abbrev tap : Fin 512 → EReal := fun d => val_main_v6 (F := Ideal) x2 (ix1 d)
/-- A rank-2 array as a function of its two coordinates. -/
abbrev mat {a b : ℕ} (x : (⟨⟨2, ![a, b]⟩, .f32⟩ : BufTy).Contents (Elt Ideal)) : Fin a → Fin b → EReal :=
  fun k j => x (ix2 k j)
/-- A rank-1 array as a function of its coordinate. -/
abbrev vec {a : ℕ} (x : (⟨⟨1, ![a]⟩, .f32⟩ : BufTy).Contents (Elt Ideal)) : Fin a → EReal := fun d => x (ix1 d)

/-! ## The input projection and its two halves -/

/-- Entry (n, j) of the first product is the projection of token n. -/
theorem v2_at (n : Fin 131072) (j : Fin 1024) :
    val_main_v2 (F := Ideal) x0 x1 (ix2 n j) = proj (tok x0 n) (mat x1) j := by
  rw [val_main_v2_apply]
  refine Finset.sum_congr rfl fun k _ => ?_
  have hl : lidx_main_v2 (ix2 n j) k = ix2 n k :=
    funext fun a => Fin.ext (by match a with | ⟨0, _⟩ => rfl | ⟨1, _⟩ => rfl)
  have hr : ridx_main_v2 (ix2 n j) k = ix2 k j :=
    funext fun a => Fin.ext (by match a with | ⟨0, _⟩ => rfl | ⟨1, _⟩ => rfl)
  rw [hl, hr]

/-- The first 512 columns. -/
theorem v3_at (n : Fin 131072) (d : Fin 512) :
    val_main_v3 (F := Ideal) x0 x1 (ix2 n d) = proj (tok x0 n) (mat x1) (lo d) := by
  have h : idx_main_v3 (ix2 n d) = ix2 n (lo d) :=
    funext fun a => Fin.ext (by match a with | ⟨0, _⟩ => rfl | ⟨1, _⟩ => rfl)
  rw [val_main_v3_apply, h, v2_at]

/-- The last 512 columns. -/
theorem v4_at (n : Fin 131072) (d : Fin 512) :
    val_main_v4 (F := Ideal) x0 x1 (ix2 n d) = proj (tok x0 n) (mat x1) (hi d) := by
  have h : idx_main_v4 (ix2 n d) = ix2 n (hi d) :=
    funext fun a => Fin.ext (by match a with | ⟨0, _⟩ => rfl | ⟨1, _⟩ => rfl)
  rw [val_main_v4_apply, h, v2_at]

/-! ## The convolution tap, its bias and the SiLU -/

/-- The tap broadcast over the tokens. -/
theorem v8_at (n : Fin 131072) (d : Fin 512) : val_main_v8 (F := Ideal) x2 (ix2 n d) = tap x2 d := by
  have h : idx_main_v7 (idx_main_v8 (ix2 n d)) = ix1 d :=
    funext fun a => Fin.ext (by match a with | ⟨0, _⟩ => rfl)
  rw [val_main_v8_apply, val_main_v7_apply, h]

/-- The bias broadcast over the tokens. -/
theorem v11_at (n : Fin 131072) (d : Fin 512) : val_main_v11 (F := Ideal) x3 (ix2 n d) = vec x3 d := by
  have h : idx_main_v10 (idx_main_v11 (ix2 n d)) = ix1 d :=
    funext fun a => Fin.ext (by match a with | ⟨0, _⟩ => rfl)
  rw [val_main_v11_apply, val_main_v10_apply, h]

/-- The convolution before its SiLU. -/
theorem v12_at (n : Fin 131072) (d : Fin 512) :
    val_main_v12 (F := Ideal) x0 x1 x2 x3 (ix2 n d) = proj (tok x0 n) (mat x1) (lo d) * tap x2 d + vec x3 d := by
  rw [val_main_v12_apply, val_main_v9_apply, v3_at, v8_at, v11_at]
  rfl

/-- The convolution with its SiLU. -/
theorem v13_at (n : Fin 131072) (d : Fin 512) :
    val_main_v13 (F := Ideal) x0 x1 x2 x3 (ix2 n d) = conv (tok x0 n) (mat x1) (tap x2) (vec x3) d := by
  rw [val_main_v13_apply, val_main_call0_v5_apply, val_main_call0_v4_apply, val_main_call0_cst_0_apply,
    val_main_call0_v3_apply, val_main_call0_v2_apply, val_main_call0_cst_apply, val_main_call0_v1_apply,
    val_main_call0_v0_apply, v12_at]
  exact silu_spelled _

/-! ## Step rank, B and C -/

/-- The second projection. -/
theorem v14_at (n : Fin 131072) (e : Fin 48) :
    val_main_v14 (F := Ideal) x0 x1 x2 x3 x4 (ix2 n e) = dbc (tok x0 n) (mat x1) (tap x2) (vec x3) (mat x4) e := by
  rw [val_main_v14_apply]
  refine Finset.sum_congr rfl fun k _ => ?_
  have hl : lidx_main_v14 (ix2 n e) k = ix2 n k :=
    funext fun a => Fin.ext (by match a with | ⟨0, _⟩ => rfl | ⟨1, _⟩ => rfl)
  have hr : ridx_main_v14 (ix2 n e) k = ix2 k e :=
    funext fun a => Fin.ext (by match a with | ⟨0, _⟩ => rfl | ⟨1, _⟩ => rfl)
  rw [hl, hr, v13_at]

/-- Its step-rank columns. -/
theorem v15_at (n : Fin 131072) (r : Fin 16) :
    val_main_v15 (F := Ideal) x0 x1 x2 x3 x4 (ix2 n r)
      = dbc (tok x0 n) (mat x1) (tap x2) (vec x3) (mat x4) (cDt r) := by
  have h : idx_main_v15 (ix2 n r) = ix2 n (cDt r) :=
    funext fun a => Fin.ext (by match a with | ⟨0, _⟩ => rfl | ⟨1, _⟩ => rfl)
  rw [val_main_v15_apply, h, v14_at]

/-- Its B columns. -/
theorem v16_at (n : Fin 131072) (s : Fin 16) :
    val_main_v16 (F := Ideal) x0 x1 x2 x3 x4 (ix2 n s)
      = dbc (tok x0 n) (mat x1) (tap x2) (vec x3) (mat x4) (cB s) := by
  have h : idx_main_v16 (ix2 n s) = ix2 n (cB s) :=
    funext fun a => Fin.ext (by match a with | ⟨0, _⟩ => rfl | ⟨1, _⟩ => rfl)
  rw [val_main_v16_apply, h, v14_at]

/-- Its C columns. -/
theorem v17_at (n : Fin 131072) (s : Fin 16) :
    val_main_v17 (F := Ideal) x0 x1 x2 x3 x4 (ix2 n s)
      = dbc (tok x0 n) (mat x1) (tap x2) (vec x3) (mat x4) (cC s) := by
  have h : idx_main_v17 (ix2 n s) = ix2 n (cC s) :=
    funext fun a => Fin.ext (by match a with | ⟨0, _⟩ => rfl | ⟨1, _⟩ => rfl)
  rw [val_main_v17_apply, h, v14_at]

/-! ## The step size -/

/-- The projection of the step-rank columns to the inner channels. -/
theorem v18_at (n : Fin 131072) (d : Fin 512) :
    val_main_v18 (F := Ideal) x0 x1 x2 x3 x4 x5 (ix2 n d)
      = ∑ r : Fin 16, dbc (tok x0 n) (mat x1) (tap x2) (vec x3) (mat x4) (cDt r) * mat x5 r d := by
  rw [val_main_v18_apply]
  refine Finset.sum_congr rfl fun k _ => ?_
  have hl : lidx_main_v18 (ix2 n d) k = ix2 n k :=
    funext fun a => Fin.ext (by match a with | ⟨0, _⟩ => rfl | ⟨1, _⟩ => rfl)
  have hr : ridx_main_v18 (ix2 n d) k = ix2 k d :=
    funext fun a => Fin.ext (by match a with | ⟨0, _⟩ => rfl | ⟨1, _⟩ => rfl)
  rw [hl, hr, v15_at]

/-- The step bias broadcast over the tokens. -/
theorem v20_at (n : Fin 131072) (d : Fin 512) : val_main_v20 (F := Ideal) x6 (ix2 n d) = vec x6 d := by
  have h : idx_main_v19 (idx_main_v20 (ix2 n d)) = ix1 d :=
    funext fun a => Fin.ext (by match a with | ⟨0, _⟩ => rfl)
  rw [val_main_v20_apply, val_main_v19_apply, h]

/-- The step size before its softplus. -/
theorem v21_at (n : Fin 131072) (d : Fin 512) :
    val_main_v21 (F := Ideal) x0 x1 x2 x3 x4 x5 x6 (ix2 n d)
      = deltaLin (tok x0 n) (mat x1) (tap x2) (vec x3) (mat x4) (mat x5) (vec x6) d := by
  rw [val_main_v21_apply, v18_at, v20_at]
  rfl

/-- The step size. -/
theorem v22_at (n : Fin 131072) (d : Fin 512) :
    val_main_v22 (F := Ideal) x0 x1 x2 x3 x4 x5 x6 (ix2 n d)
      = softplus (deltaLin (tok x0 n) (mat x1) (tap x2) (vec x3) (mat x4) (mat x5) (vec x6) d) := by
  rw [val_main_v22_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v5_apply, val_main_call1_v2_apply,
    val_main_call1_v0_apply, val_main_call1_cst_apply, v21_at]
  exact softplus_spelled _

/-! ## The inner product of B and C -/

/-- The products of the B and C columns. -/
theorem v23_at (n : Fin 131072) (s : Fin 16) :
    val_main_v23 (F := Ideal) x0 x1 x2 x3 x4 (ix2 n s)
      = dbc (tok x0 n) (mat x1) (tap x2) (vec x3) (mat x4) (cB s)
        * dbc (tok x0 n) (mat x1) (tap x2) (vec x3) (mat x4) (cC s) := by
  rw [val_main_v23_apply, v16_at, v17_at]
  rfl

/-- Their sum over the state, from zero. -/
theorem v24_at (n : Fin 131072) :
    val_main_v24 (F := Ideal) x0 x1 x2 x3 x4 (ix1 n) = bcDot (tok x0 n) (mat x1) (tap x2) (vec x3) (mat x4) := by
  rw [val_main_v24_apply, val_main_cst_apply, Ideal.ofBits_def, Ideal.ofBits_zero_f32, zero_add]
  refine Finset.sum_congr rfl fun k _ => ?_
  have h : idx_main_v24 (ix1 n) k = ix2 n k :=
    funext fun a => Fin.ext (by match a with | ⟨0, _⟩ => rfl | ⟨1, _⟩ => rfl)
  rw [h, v23_at]

/-- The same, broadcast over the inner channels. -/
theorem v27_at (n : Fin 131072) (d : Fin 512) :
    val_main_v27 (F := Ideal) x0 x1 x2 x3 x4 (ix2 n d) = bcDot (tok x0 n) (mat x1) (tap x2) (vec x3) (mat x4) := by
  have h : idx_main_v25 (idx_main_v27 (ix2 n d)) = ix1 n :=
    funext fun a => Fin.ext (by match a with | ⟨0, _⟩ => rfl)
  rw [val_main_v27_apply, val_main_v25_apply, h, v24_at]

/-! ## The scan step and its gate -/

/-- The skip weight broadcast over the tokens. -/
theorem v30_at (n : Fin 131072) (d : Fin 512) : val_main_v30 (F := Ideal) x8 (ix2 n d) = vec x8 d := by
  have h : idx_main_v29 (idx_main_v30 (ix2 n d)) = ix1 d :=
    funext fun a => Fin.ext (by match a with | ⟨0, _⟩ => rfl)
  rw [val_main_v30_apply, val_main_v29_apply, h]

/-- The SiLU of the second half of the input projection. -/
theorem v33_at (n : Fin 131072) (d : Fin 512) :
    val_main_v33 (F := Ideal) x0 x1 (ix2 n d) = silu (proj (tok x0 n) (mat x1) (hi d)) := by
  rw [val_main_v33_apply, val_main_call2_v5_apply, val_main_call2_v4_apply, val_main_call2_cst_0_apply,
    val_main_call2_v3_apply, val_main_call2_v2_apply, val_main_call2_cst_apply, val_main_call2_v1_apply,
    val_main_call2_v0_apply, v4_at]
  exact silu_spelled _

/-- The gated scan step. -/
theorem v34_at (n : Fin 131072) (d : Fin 512) :
    val_main_v34 (F := Ideal) x0 x1 x2 x3 x4 x5 x6 x8 (ix2 n d)
      = gated (tok x0 n) (mat x1) (tap x2) (vec x3) (mat x4) (mat x5) (vec x6) (vec x8) d := by
  rw [val_main_v34_apply, val_main_v32_apply, val_main_v28_apply, val_main_v26_apply, val_main_v31_apply, v22_at,
    v13_at, v27_at, v30_at, v33_at]
  rfl

/-! ## The output projection, doubled and halved -/

/-- The output projection. -/
theorem v35_at (n : Fin 131072) (q : Fin 256) :
    val_main_v35 (F := Ideal) x0 x1 x2 x3 x4 x5 x6 x8 x9 (ix2 n q)
      = rowOut (tok x0 n) (mat x1) (tap x2) (vec x3) (mat x4) (mat x5) (vec x6) (vec x8) (mat x9) q := by
  rw [val_main_v35_apply]
  refine Finset.sum_congr rfl fun k _ => ?_
  have hl : lidx_main_v35 (ix2 n q) k = ix2 n k :=
    funext fun a => Fin.ext (by match a with | ⟨0, _⟩ => rfl | ⟨1, _⟩ => rfl)
  have hr : ridx_main_v35 (ix2 n q) k = ix2 k q :=
    funext fun a => Fin.ext (by match a with | ⟨0, _⟩ => rfl | ⟨1, _⟩ => rfl)
  rw [hl, hr, v34_at]

/-- Adding the projection to itself and halving gives it back. -/
theorem v38_at (n : Fin 131072) (q : Fin 256) :
    val_main_v38 (F := Ideal) x0 x1 x2 x3 x4 x5 x6 x8 x9 (ix2 n q)
      = rowOut (tok x0 n) (mat x1) (tap x2) (vec x3) (mat x4) (mat x5) (vec x6) (vec x8) (mat x9) q := by
  rw [val_main_v38_apply, val_main_v36_apply, val_main_v37_apply, val_main_cst_0_apply, v35_at, Ideal.ofBits_def,
    ofBits_half_f32]
  exact double_half _

end

/-- The reference's array before its final reshape and transpose, at row `n` and column `q`, is the
    specification's output of token `n`. -/
theorem v38_apply (x0 : (⟨S8x256x128x128, .f32⟩ : BufTy).Contents (Elt Ideal)) (x1 : (⟨S256x1024, .f32⟩ : BufTy).Contents (Elt Ideal)) (x2 : (⟨S512x4, .f32⟩ : BufTy).Contents (Elt Ideal)) (x3 : (⟨S512, .f32⟩ : BufTy).Contents (Elt Ideal)) (x4 : (⟨S512x48, .f32⟩ : BufTy).Contents (Elt Ideal)) (x5 : (⟨S16x512, .f32⟩ : BufTy).Contents (Elt Ideal)) (x6 x8 : (⟨S512, .f32⟩ : BufTy).Contents (Elt Ideal)) (x9 : (⟨S512x256, .f32⟩ : BufTy).Contents (Elt Ideal)) (n : Fin 131072) (q : Fin 256) :
    val_main_v38 (F := Ideal) x0 x1 x2 x3 x4 x5 x6 x8 x9 (ix2 n q)
      = Cert.SsmRow.rowOut (fun k => val_main_v1 (F := Ideal) x0 (ix2 n k)) (fun k j => x1 (ix2 k j))
          (fun d => val_main_v6 (F := Ideal) x2 (ix1 d)) (fun d => x3 (ix1 d)) (fun d e => x4 (ix2 d e))
          (fun r d => x5 (ix2 r d)) (fun d => x6 (ix1 d)) (fun d => x8 (ix1 d)) (fun d q' => x9 (ix2 d q')) q :=
  v38_at x0 x1 x2 x3 x4 x5 x6 x8 x9 n q

end Cert.ReferenceIdeal.RefValue

end
-- ==== Proof.lean ====
/-
  A one-token selective state-space block applied to every pixel of an image: the kernel against its reference.

  Both programs flatten the [8, 256, 128, 128] image to 131072 tokens of 256 channels, apply the same row function to
  every token (Spec.lean's `rowOut`: input projection, convolution tap and SiLU, projection to step rank / B / C,
  softplus step size, one scan step from a zero state, gate, output projection) and lay the result back out as an image.
  The kernel does it 1024 tokens at a time, with the matrix products on rounded operands, which at the extended reals are
  the operands themselves; the reference does it in one piece and then averages the result with itself, which gives it
  back. KernelValue.lean reads the kernel's result array as the row function of every token, RefValue.lean the
  reference's; here the two are joined and the five claims assembled. No law used needs the inputs to be finite.
-/
import proofs.«146968_j14388140441602_1_alg».proof.Defs
import proofs.«146968_j14388140441602_1_alg».proof.Proof.Gen.Kernel
import proofs.«146968_j14388140441602_1_alg».proof.Proof.Gen.Kernel.Skeleton
import proofs.«146968_j14388140441602_1_alg».proof.Proof.Gen.Kernel.Launch
import proofs.«146968_j14388140441602_1_alg».proof.Proof.Gen.Kernel.Points
import proofs.«146968_j14388140441602_1_alg».proof.Proof.Gen.Kernel.Frame
import proofs.«146968_j14388140441602_1_alg».proof.Proof.Gen.KernelIdeal
import proofs.«146968_j14388140441602_1_alg».proof.Proof.Gen.KernelIdeal.Skeleton
import proofs.«146968_j14388140441602_1_alg».proof.Proof.Gen.KernelIdeal.Launch
import proofs.«146968_j14388140441602_1_alg».proof.Proof.Gen.KernelIdeal.Points
import proofs.«146968_j14388140441602_1_alg».proof.Proof.Gen.KernelIdeal.Frame
import proofs.«146968_j14388140441602_1_alg».proof.Proof.Gen.ReferenceIdeal
import proofs.«146968_j14388140441602_1_alg».proof.Proof.Gen.Pre_finite_inputs
import proofs.«146968_j14388140441602_1_alg».proof.Proof.Gen.ReferenceIdeal.Run
import proofs.«146968_j14388140441602_1_alg».proof.Proof.Gen.ReferenceIdeal.Read
import proofs.«146968_j14388140441602_1_alg».proof.Proof.KernelValue
import proofs.«146968_j14388140441602_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal.KernelValue Cert.KernelIdeal.Payload Cert.SsmRow

/-- The kernel's result array, token by token, is the reference's array before its final re-layout, of the same
    arguments: both are `rowOut` of each token, and the arrays the kernel's windows read are the reference's own
    re-layouts of the arguments (the token matrix, the filter's last column, the three channel vectors as rows). -/
theorem tokenwise_eq_ref (m : (ℓ : Loc Cert.KernelIdeal.nD Cert.KernelIdeal.τ Cert.KernelIdeal.sig) → Buf (Elt Ideal) ℓ) (c : Dev Cert.KernelIdeal.nD) :
    tokenwise m c = Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  funext i
  obtain ⟨n, q, rfl⟩ : ∃ (n : Fin 131072) (q : Fin 256), i = ix2 n q := ⟨i 0, i 1, eq_ix2 i⟩
  rw [Cert.ReferenceIdeal.RefValue.v38_apply]
  unfold tokenwise
  have h0 : (fun k => xs m c (ix2 n k)) = fun k : Fin 256 => Cert.ReferenceIdeal.Read.val_main_v1 (F := Ideal) (m ((c.tc : Thread Cert.KernelIdeal.nD Cert.KernelIdeal.τ).loc Cert.KernelIdeal.main_arg0)) (ix2 n k) := by
    rw [xs_eq]; rfl
  have h1 : mat (wIn m c) = fun (k : Fin 256) (j : Fin 1024) => (m ((c.tc : Thread Cert.KernelIdeal.nD Cert.KernelIdeal.τ).loc Cert.KernelIdeal.main_arg1)) (ix2 k j) := by
    unfold wIn; rw [Cert.KernelIdeal.Gen.V_main_arg1]
  have h2 : row (tapRow m c) = fun d : Fin 512 => Cert.ReferenceIdeal.Read.val_main_v6 (F := Ideal) (m ((c.tc : Thread Cert.KernelIdeal.nD Cert.KernelIdeal.τ).loc Cert.KernelIdeal.main_arg2)) (ix1 d) := by
    rw [tapRow_eq]; funext d; exact shapeCast_a_1a_apply _ _ 0 d
  have h3 : row (biasRow m c) = fun d : Fin 512 => (m ((c.tc : Thread Cert.KernelIdeal.nD Cert.KernelIdeal.τ).loc Cert.KernelIdeal.main_arg3)) (ix1 d) := by
    rw [biasRow_eq]; funext d; exact shapeCast_a_1a_apply _ _ 0 d
  have h4 : mat (wX m c) = fun (d : Fin 512) (e : Fin 48) => (m ((c.tc : Thread Cert.KernelIdeal.nD Cert.KernelIdeal.τ).loc Cert.KernelIdeal.main_arg4)) (ix2 d e) := by
    unfold wX; rw [Cert.KernelIdeal.Gen.V_main_arg4]
  have h5 : mat (wDt m c) = fun (r : Fin 16) (d : Fin 512) => (m ((c.tc : Thread Cert.KernelIdeal.nD Cert.KernelIdeal.τ).loc Cert.KernelIdeal.main_arg5)) (ix2 r d) := by
    unfold wDt; rw [Cert.KernelIdeal.Gen.V_main_arg5]
  have h6 : row (bDtRow m c) = fun d : Fin 512 => (m ((c.tc : Thread Cert.KernelIdeal.nD Cert.KernelIdeal.τ).loc Cert.KernelIdeal.main_arg6)) (ix1 d) := by
    rw [bDtRow_eq]; funext d; exact shapeCast_a_1a_apply _ _ 0 d
  have h7 : row (dRow m c) = fun d : Fin 512 => (m ((c.tc : Thread Cert.KernelIdeal.nD Cert.KernelIdeal.τ).loc Cert.KernelIdeal.main_arg8)) (ix1 d) := by
    rw [dRow_eq]; funext d; exact shapeCast_a_1a_apply _ _ 0 d
  have h8 : mat (wOut m c) = fun (d : Fin 512) (q' : Fin 256) => (m ((c.tc : Thread Cert.KernelIdeal.nD Cert.KernelIdeal.τ).loc Cert.KernelIdeal.main_arg9)) (ix2 d q') := by
    unfold wOut; rw [Cert.KernelIdeal.Gen.V_main_arg9]
  rw [h0, h1, h2, h3, h4, h5, h6, h7, h8]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's image of `tokenwise` and the reference's result are one array of arguments that agree. -/
theorem algebraic : Cert.algebraic_KernelIdeal_ReferenceIdeal := by
  intro m ρ m' ρ' _ hagree
  refine ⟨fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩) (run m ρ)
    rw [tokenwise_eq_ref]
    rfl
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v40_eq, (hagree c).1, (hagree c).2.1, (hagree c).2.2.1, (hagree c).2.2.2.1, (hagree c).2.2.2.2.1,
      (hagree c).2.2.2.2.2.1, (hagree c).2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
